-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩

abbrev nBuf : Space → Nat
  | .hbm => 87
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x32, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x32, .f32⟩
  | .hbm, ⟨77, _⟩ => ⟨S3300000x1, .f32⟩
  | .hbm, ⟨78, _⟩ => ⟨S3300000x32, .f32⟩
  | .hbm, ⟨79, _⟩ => ⟨S3300000x32, .f32⟩
  | .hbm, ⟨80, _⟩ => ⟨S_, .f32⟩
  | .hbm, ⟨81, _⟩ => ⟨S100000x32, .f32⟩
  | .hbm, ⟨82, _⟩ => ⟨S3300000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x32, .f32⟩
  | .hbm, ⟨82, _⟩ => ⟨S3300000x1, .f32⟩
  | .hbm, ⟨83, _⟩ => ⟨S3300000x32, .f32⟩
  | .hbm, ⟨84, _⟩ => ⟨S3300000x32, .f32⟩
  | .hbm, ⟨85, _⟩ => ⟨S_, .f32⟩
  | .hbm, ⟨86, _⟩ => ⟨S100000x32, .f32⟩
  | .hbm, ⟨87, _⟩ => ⟨S3300000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.HostChain.lean ====
/-
  The graph part of the network, shared word for word by both programs.

  A graph convolution layer sends along every edge (and along one self loop per node) the source node's feature row,
  scaled by 1/sqrt(deg(source) * deg(target)), and adds what arrives at each target node. Everything in that recipe
  except the feature rows themselves is computed from the edge list alone, and both programs compute it by the same
  host operations. They are named here once, as functions of their operands, so that the two programs can be compared
  without ever opening a gather or a scatter: two layers agree as soon as the feature rows going in agree.
-/
import proofs.«131976_j47605417508956_1_alg».proof.Proof.Gen.KernelIdeal

noncomputable section

namespace Cert.GCN

open Idealize.ShloMosaic Cert.KernelIdeal Cert.KernelIdeal.Facts₀

variable {F : FTy → Type} [FloatOps F]

/-- One index per message: the edge list's row `r` (0: sources, 1: targets), followed by the nodes 0 … N-1 for the self loops. -/
def endpoints (off : Fin 2 → Nat) (hs : S2x3200000.Slices off S1x3200000)
    (e : (⟨S2x3200000, .i32⟩ : BufTy).Contents (Elt F)) : (⟨S3300000, .i32⟩ : BufTy).Contents (Elt F) :=
  concatenate S3300000 0 [⟨S3200000, (shapeCast _ (extractStridedSlice S1x3200000 off e hs) shapeCasts_S1x3200000_S3200000)⟩, ⟨S100000, (iotaInDim S100000 32 0)⟩] concatenates_S3200000_S100000_S3300000_d0

/-- The message sources. -/
def srcIdx (e : (⟨S2x3200000, .i32⟩ : BufTy).Contents (Elt F)) : (⟨S3300000, .i32⟩ : BufTy).Contents (Elt F) :=
  endpoints ![0, 0] slices_S2x3200000_S1x3200000_0_0 e

/-- The message targets. -/
def dstIdx (e : (⟨S2x3200000, .i32⟩ : BufTy).Contents (Elt F)) : (⟨S3300000, .i32⟩ : BufTy).Contents (Elt F) :=
  endpoints ![1, 0] slices_S2x3200000_S1x3200000_1_0 e

/-- An index column for a gather: a negative index counts from the end (N is added to it). -/
def wrapIdx (s : (⟨S3300000, .i32⟩ : BufTy).Contents (Elt F)) : (⟨S3300000x1, .i32⟩ : BufTy).Contents (Elt F) :=
  broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s)

/-- The in-degree of every node, self loop included: a one added at each message's target. -/
def degree (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- 1/sqrt(deg) where the degree is positive, else 0. -/
def invSqrtDeg (d : (⟨S3300000, .i32⟩ : BufTy).Contents (Elt F)) : (⟨S100000, .f32⟩ : BufTy).Contents (Elt F) :=
  select (cmpf (F := F) .ogt (degree d) (broadcastInDim S100000 ![] bcast_S_S100000 (constant S_ .f32 0x00000000#32))) (Host.rsqrt (maximumf (degree d) (broadcastInDim S100000 ![] bcast_S_S100000 (constant S_ .f32 0x2B8CBCCC#32)))) (broadcastInDim S100000 ![] bcast_S_S100000 (id (constant S_ .f32 0x00000000#32)))

/-- The weight of every message: 1/sqrt(deg) at its source times 1/sqrt(deg) at its target. -/
def edgeNorm (s d : (⟨S3300000, .i32⟩ : BufTy).Contents (Elt F)) : (⟨S3300000, .f32⟩ : BufTy).Contents (Elt F) :=
  mulf (Host.gather gather_S100000_S3300000x1_S3300000_n_0_n_n_0_1_1 (invSqrtDeg d) (wrapIdx s)) (Host.gather gather_S100000_S3300000x1_S3300000_n_0_n_n_0_1_1 (invSqrtDeg d) (wrapIdx d))

/-- Layer 1's aggregation of 64-wide rows `h`: each message carries row `s` of `h` times its weight and is added into row `d`. -/
def aggregate64 (s d : (⟨S3300000, .i32⟩ : BufTy).Contents (Elt F)) (n : (⟨S3300000, .f32⟩ : BufTy).Contents (Elt F))
    (h : (⟨S100000x64, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (broadcastInDim S3300000x1 ![0] bcast_S3300000_S3300000x1_0 d) (mulf (Host.gather gather_S100000x64_S3300000x1_S3300000x64_1_0_n_n_0_1_164 h (wrapIdx s)) (broadcastInDim S3300000x64 ![0, 1] bcast_S3300000x1_S3300000x64_0_1 (broadcastInDim S3300000x1 ![0] bcast_S3300000_S3300000x1_0 n)))

/-- Layer 2's aggregation of 32-wide rows `h`, and the output bias `b` added to every row. -/
def aggregate32 (s d : (⟨S3300000, .i32⟩ : BufTy).Contents (Elt F)) (n : (⟨S3300000, .f32⟩ : BufTy).Contents (Elt F))
    (h : (⟨S100000x32, .f32⟩ : BufTy).Contents (Elt F)) (b : (⟨S32, .f32⟩ : BufTy).Contents (Elt F)) : (⟨S100000x32, .f32⟩ : BufTy).Contents (Elt F) :=
  addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 d) (mulf (Host.gather gather_S100000x32_S3300000x1_S3300000x32_1_0_n_n_0_1_132 h (wrapIdx s)) (broadcastInDim S3300000x32 ![0, 1] bcast_S3300000x1_S3300000x32_0_1 (broadcastInDim S3300000x1 ![0] bcast_S3300000_S3300000x1_0 n)))) (broadcastInDim S100000x32 ![0, 1] bcast_S1x32_S100000x32_0_1 (broadcastInDim S1x32 ![1] bcast_S32_S1x32_1 b))

end Cert.GCN

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Layer1.lean ====
/-
  Layer 1's dense transform, as one product of whole arrays.

  The first kernel walks the node axis in ten blocks of 10000 rows. At each block it multiplies that block of the
  feature matrix (128 columns) by the whole weight matrix (128 by 64) into a zero accumulator and writes the 10000 by 64
  product to the same rows of its output. At the ideal values the change of format before the product is the identity
  and a product into zero is the plain sum over the shared axis, so entry (r, q) of the output is the sum over k of
  x (r, k) * w (k, q) whichever block row r lies in: the output array is the product of the whole arrays. The blocks tile
  the rows, so every entry is written.
-/
import proofs.«131976_j47605417508956_1_alg».proof.Proof.Gen.KernelIdeal.Frame
import proofs.«131976_j47605417508956_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.GCN.Layer1

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The product of the whole feature matrix and the weight matrix. -/
def product (x : FVec Ideal S100000x128 .f32) (w : FVec Ideal S128x64 .f32) : FVec Ideal S100000x64 .f32 :=
  Host.dotGeneral (F := Ideal) (DotDims.plain 100000 128 64) none x w

/-- Entry (r, q) of the product. -/
theorem product_apply (x : FVec Ideal S100000x128 .f32) (w : FVec Ideal S128x64 .f32) (r : Fin 100000) (q : Fin 64) :
    product x w (ix2 r q) = ∑ k : Fin 128, x (ix2 r k) * w (ix2 k q) :=
  Cert.GNN.dotGeneral_plain_apply none .single x w r q

/-- What the body stores, at entry (p, q) of a block: the block's row p against the weight's column q. -/
theorem body_apply (x0 : FVec Ideal S10000x128 .f32) (x1 : FVec Ideal S128x64 .f32) (p : Fin 10000) (q : Fin 64) :
    k0_pay1 x0 x1 (ix2 p q) = ∑ k : Fin 128, x0 (ix2 p k) * x1 (ix2 k q) := by
  unfold k0_pay1
  exact Cert.GNN.matmul_plain_zero_apply (M := 10000) (K := 128) (N := 64) none
    (truncf .bf16 x0 bitsLt_bf16_f32) (truncf .bf16 x1 bitsLt_bf16_f32) p q

/-- The printed index maps over the grid: point t takes block row t of the features and of the output, and the one
    block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- Row p of point t's feature block is row 10000 t + p of the feature matrix. -/
theorem xblock_apply (c : Dev nD) (t : Fin cfg0.N) (p : Fin 10000) (k : Fin 128) (r : Fin 100000)
    (hr : r.val = t.val * 10000 + p.val) :
    (iblk0 V c 0 t : FVec Ideal S10000x128 .f32) (ix2 p k) = (V c main_arg0 : FVec Ideal S100000x128 .f32) (ix2 r k) := by
  obtain ⟨e0, e1, -, -, -, -⟩ := idx_facts t
  unfold iblk0
  rw [View.read_apply]
  show (V c main_arg0 : FVec Ideal S100000x128 .f32) _ = _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- Every point's weight block is the weight matrix. -/
theorem wblock_apply (c : Dev nD) (t : Fin cfg0.N) (k : Fin 128) (q : Fin 64) :
    (iblk0 V c 1 t : FVec Ideal S128x64 .f32) (ix2 k q) = (V c main_arg1 : FVec Ideal S128x64 .f32) (ix2 k q) := by
  obtain ⟨-, -, e2, e3, -, -⟩ := idx_facts t
  unfold iblk0
  rw [View.read_apply]
  show (V c main_arg1 : FVec Ideal S128x64 .f32) _ = _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- What point t leaves in the output's staging buffer, entry by entry, is the product of the whole arrays at the
    entry of the output array the block's entry lands on. -/
theorem block_eq (c : Dev nD) (t : Fin cfg0.N) (j : S10000x64.Idx) (i : S100000x64.Idx)
    (h0 : (i 0).val = t.val * 10000 + (j 0).val) (h1 : (i 1).val = (j 1).val) :
    k0_pay1 (iblk0 V c 0 t) (iblk0 V c 1 t) j = product (V c main_arg0) (V c main_arg1) i := by
  obtain ⟨p, q, rfl⟩ : ∃ (p : Fin 10000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hq : q' = q := Fin.ext h1
  subst hq
  refine (body_apply (iblk0 V c 0 t) (iblk0 V c 1 t) p q').trans ?_
  refine Eq.trans ?_ (product_apply (V c main_arg0) (V c main_arg1) r q').symm
  refine Finset.sum_congr rfl fun k _ => ?_
  rw [xblock_apply V c t p k r h0, wblock_apply V c t k q']

/-- WHAT POINT t WRITES BACK is block t of the product of the arrays the region finds. -/
theorem flushed_eq (c : Dev nD) (t : Fin cfg0.N) :
    (dat0 V c).flushed 2 t = ((cfg0.win 2).blk t).view.read (Elt Ideal) (product (V c main_arg0) (V c main_arg1)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  show k0_pay1 (iblk0 V c 0 t) (iblk0 V c 1 t) j = product (V c main_arg0) (V c main_arg1) (((cfg0.win 2).blk t).view.emb j)
  refine block_eq V c t j _ ?_ ?_
  · show win0_2.index t (0 : Fin 2) * 10000 + 1 * (j 0).val = t.val * 10000 + (j 0).val; rw [e4]; omega
  · show win0_2.index t (1 : Fin 2) * 64 + 1 * (j 1).val = (j 1).val; rw [e5]; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten blocks tile the rows: row r lies in block r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000
              rw [e4]; show (i 0).val / 10000 * 10000 ≤ (i 0).val ∧ (i 0).val < (i 0).val / 10000 * 10000 + 10000; omega
  | ⟨1, _⟩ => show win0_2.index t (1 : Fin 2) * 64 ≤ (i 1).val ∧ (i 1).val < win0_2.index t (1 : Fin 2) * 64 + 64
              rw [e5]; omega

/-- THE OUTPUT ARRAY after the region: the product of the feature matrix and the weights as the region finds them. -/
theorem final (c : Dev nD) : (dat0 V c).arrAt 2 cfg0.N = product (V c main_arg0) (V c main_arg1) :=
  (dat0 V c).arrAt_eq_of_cover 2 (product (V c main_arg0) (V c main_arg1)) (fun t _ => flushed_eq V c t) (cover)

end

end Cert.GCN.Layer1

end
-- ==== Proof.Layer2.lean ====
/-
  Layer 2's fused transform, as one function of whole arrays.

  The second kernel also walks the node axis in ten blocks of 10000 rows. At each block it adds the bias row to every
  row of that block of the aggregated features (64 columns), clamps the sum below at zero, and multiplies the result by
  the whole second weight matrix (64 by 32) into a zero accumulator; the 10000 by 32 product goes to the same rows of
  the output. The bias row and the clamp act entry by entry, so row r of the clamped block is row r of the clamped
  whole array, and as in layer 1 the product into zero is the plain sum over the shared axis: the output array is the
  product of the clamped whole array and the weights. The blocks tile the rows, so every entry is written.
-/
import proofs.«131976_j47605417508956_1_alg».proof.Proof.Gen.KernelIdeal.Frame
import proofs.«131976_j47605417508956_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.GCN.Layer2

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The hidden activations: the bias row (held as a 1 by 64 array) added to every row of `a`, clamped below at zero. -/
def hidden (a : FVec Ideal S100000x64 .f32) (brow : FVec Ideal S1x64 .f32) : FVec Ideal S100000x64 .f32 :=
  fun i => max (a i + brow (ix2 (⟨0, Nat.one_pos⟩ : Fin 1) (⟨(i 1).val, idx2_lt1 i⟩ : Fin 64))) (Ideal.ofBits .f32 0x00000000#32)

/-- The product of a whole 100000 by 64 array and the second weight matrix. -/
def product (h : FVec Ideal S100000x64 .f32) (w : FVec Ideal S64x32 .f32) : FVec Ideal S100000x32 .f32 :=
  Host.dotGeneral (F := Ideal) (DotDims.plain 100000 64 32) none h w

/-- Entry (r, q) of the product. -/
theorem product_apply (h : FVec Ideal S100000x64 .f32) (w : FVec Ideal S64x32 .f32) (r : Fin 100000) (q : Fin 32) :
    product h w (ix2 r q) = ∑ k : Fin 64, h (ix2 r k) * w (ix2 k q) :=
  Cert.GNN.dotGeneral_plain_apply none .single h w r q

/-- The body's clamped sum at entry (p, k) of a block: the block's entry plus the bias row's entry k, clamped at zero. -/
theorem act_apply (x0 : FVec Ideal S10000x64 .f32) (x1 : FVec Ideal S1x64 .f32) (p : Fin 10000) (k : Fin 64) :
    (maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) : FVec Ideal S10000x64 .f32) (ix2 p k)
      = max (x0 (ix2 p k) + x1 (ix2 (⟨0, Nat.one_pos⟩ : Fin 1) k)) (Ideal.ofBits .f32 0x00000000#32) := by
  rw [maximumf_apply, addf_apply, shapeCast_self, shapeCast_self, broadcast_apply,
    broadcastTo_apply x1 broadcasts_S1x64_S10000x64 (ix2 p k) (ix2 (⟨0, Nat.one_pos⟩ : Fin 1) k)
      (fun a => by match a with | ⟨0, _⟩ => rfl | ⟨1, _⟩ => rfl)]
  rfl

/-- What the body stores, at entry (p, q) of a block: the clamped row p against the weight's column q. -/
theorem body_apply (x0 : FVec Ideal S10000x64 .f32) (x1 : FVec Ideal S1x64 .f32) (x2 : FVec Ideal S64x32 .f32) (p : Fin 10000) (q : Fin 32) :
    k1_pay1 x0 x1 x2 (ix2 p q)
      = ∑ k : Fin 64, max (x0 (ix2 p k) + x1 (ix2 (⟨0, Nat.one_pos⟩ : Fin 1) k)) (Ideal.ofBits .f32 0x00000000#32) * x2 (ix2 k q) := by
  unfold k1_pay1
  refine (Cert.GNN.matmul_plain_zero_apply (M := 10000) (K := 64) (N := 32) none
    (truncf .bf16 (maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32))) bitsLt_bf16_f32)
    (truncf .bf16 x2 bitsLt_bf16_f32) p q).trans ?_
  refine Finset.sum_congr rfl fun k _ => ?_
  rw [truncf_apply, truncf_apply, act_apply]

/-- The printed index maps over the grid: point t takes block row t of the aggregated features and of the output, and
    the one block of the bias row and of the weights. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- Row p of point t's feature block is row 10000 t + p of the aggregated features. -/
theorem xblock_apply (c : Dev nD) (t : Fin cfg1.N) (p : Fin 10000) (k : Fin 64) (r : Fin 100000)
    (hr : r.val = t.val * 10000 + p.val) :
    (iblk1 V c 0 t : FVec Ideal S10000x64 .f32) (ix2 p k) = (V c main_v45 : FVec Ideal S100000x64 .f32) (ix2 r k) := by
  obtain ⟨e0, e1, -, -, -, -, -, -⟩ := idx_facts t
  unfold iblk1
  rw [View.read_apply]
  show (V c main_v45 : FVec Ideal S100000x64 .f32) _ = _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- Every point's bias block is the bias row. -/
theorem bblock_apply (c : Dev nD) (t : Fin cfg1.N) (k : Fin 64) :
    (iblk1 V c 1 t : FVec Ideal S1x64 .f32) (ix2 (⟨0, Nat.one_pos⟩ : Fin 1) k) = (V c main_v46 : FVec Ideal S1x64 .f32) (ix2 (⟨0, Nat.one_pos⟩ : Fin 1) k) := by
  obtain ⟨-, -, e2, e3, -, -, -, -⟩ := idx_facts t
  unfold iblk1
  rw [View.read_apply]
  show (V c main_v46 : FVec Ideal S1x64 .f32) _ = _
  congr 1
  funext a
  apply Fin.ext
  match a with
  | ⟨0, _⟩ => show win1_1.index t (0 : Fin 2) * 1 + 1 * 0 = 0; rw [e2]
  | ⟨1, _⟩ => show win1_1.index t (1 : Fin 2) * 64 + 1 * k.val = k.val; rw [e3]; omega

/-- Every point's weight block is the weight matrix. -/
theorem wblock_apply (c : Dev nD) (t : Fin cfg1.N) (k : Fin 64) (q : Fin 32) :
    (iblk1 V c 2 t : FVec Ideal S64x32 .f32) (ix2 k q) = (V c main_arg3 : FVec Ideal S64x32 .f32) (ix2 k q) := by
  obtain ⟨-, -, -, -, e4, e5, -, -⟩ := idx_facts t
  unfold iblk1
  rw [View.read_apply]
  show (V c main_arg3 : FVec Ideal S64x32 .f32) _ = _
  congr 1
  funext a
  apply Fin.ext
  match a with
  | ⟨0, _⟩ => show win1_2.index t (0 : Fin 2) * 64 + 1 * k.val = k.val; rw [e4]; omega
  | ⟨1, _⟩ => show win1_2.index t (1 : Fin 2) * 32 + 1 * q.val = q.val; rw [e5]; omega

/-- What point t leaves in the output's staging buffer, entry by entry, is the product of the clamped whole array and
    the weights at the entry of the output array the block's entry lands on. -/
theorem block_eq (c : Dev nD) (t : Fin cfg1.N) (j : S10000x32.Idx) (i : S100000x32.Idx)
    (h0 : (i 0).val = t.val * 10000 + (j 0).val) (h1 : (i 1).val = (j 1).val) :
    k1_pay1 (iblk1 V c 0 t) (iblk1 V c 1 t) (iblk1 V c 2 t) j = product (hidden (V c main_v45) (V c main_v46)) (V c main_arg3) i := by
  obtain ⟨p, q, rfl⟩ : ∃ (p : Fin 10000) (q : Fin 32), j = ix2 p q := ⟨j 0, j 1, eq_ix2 j⟩
  obtain ⟨r, q', rfl⟩ : ∃ (r : Fin 100000) (q' : Fin 32), i = ix2 r q' := ⟨i 0, i 1, eq_ix2 i⟩
  have hq : q' = q := Fin.ext h1
  subst hq
  refine (body_apply (iblk1 V c 0 t) (iblk1 V c 1 t) (iblk1 V c 2 t) p q').trans ?_
  refine Eq.trans ?_ (product_apply (hidden (V c main_v45) (V c main_v46)) (V c main_arg3) r q').symm
  refine Finset.sum_congr rfl fun k _ => ?_
  rw [xblock_apply V c t p k r h0, bblock_apply V c t k, wblock_apply V c t k q']
  rfl

/-- WHAT POINT t WRITES BACK is block t of that product of the arrays the region finds. -/
theorem flushed_eq (c : Dev nD) (t : Fin cfg1.N) :
    (dat1 V c).flushed 3 t = ((cfg1.win 3).blk t).view.read (Elt Ideal) (product (hidden (V c main_v45) (V c main_v46)) (V c main_arg3)) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x32) hz]
  funext j
  show k1_pay1 (iblk1 V c 0 t) (iblk1 V c 1 t) (iblk1 V c 2 t) j = product (hidden (V c main_v45) (V c main_v46)) (V c main_arg3) (((cfg1.win 3).blk t).view.emb j)
  refine block_eq V c t j _ ?_ ?_
  · show win1_3.index t (0 : Fin 2) * 10000 + 1 * (j 0).val = t.val * 10000 + (j 0).val; rw [e6]; omega
  · show win1_3.index t (1 : Fin 2) * 32 + 1 * (j 1).val = (j 1).val; rw [e7]; omega

/-- An index of the output array is in point t's block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v47).slice (win1_3.rect t)).set ↔ _
  rw [View.set_slice_whole, Rect.mem_set_unit]
  exact Iff.rfl

/-- The ten blocks tile the rows: row r lies in block r / 10000. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨-, -, -, -, -, -, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000
              rw [e6]; show (i 0).val / 10000 * 10000 ≤ (i 0).val ∧ (i 0).val < (i 0).val / 10000 * 10000 + 10000; omega
  | ⟨1, _⟩ => show win1_3.index t (1 : Fin 2) * 32 ≤ (i 1).val ∧ (i 1).val < win1_3.index t (1 : Fin 2) * 32 + 32
              rw [e7]; omega

/-- THE OUTPUT ARRAY after the region: the clamped aggregated features, as the region finds them, times the weights. -/
theorem final (c : Dev nD) : (dat1 V c).arrAt 3 cfg1.N = product (hidden (V c main_v45) (V c main_v46)) (V c main_arg3) :=
  (dat1 V c).arrAt_eq_of_cover 3 (product (hidden (V c main_v45) (V c main_v46)) (V c main_arg3)) (fun t _ => flushed_eq V c t) (cover)

end

end Cert.GCN.Layer2

end
-- ==== Proof.KernelValue.lean ====
/-
  The kernel program's result as one term of its arguments.

  Between its host stretches and its two kernels the program's buffers pass through seven boundaries. Reading the result
  buffer back through them, one boundary at a time: the last stretch aggregates layer 2's rows and adds the output bias;
  layer 2's rows are the second kernel's output, the product of the clamped, biased aggregate of layer 1 with the second
  weights; layer 1's aggregate is the middle stretch applied to the first kernel's output, the product of the features
  with the first weights; and the sources, targets and weights of the messages come from the first three stretches,
  which read the edge list only. Every other buffer a later stretch reads is carried across unchanged.
-/
import proofs.«131976_j47605417508956_1_alg».proof.Proof.Gen.KernelIdeal.Frame
import proofs.«131976_j47605417508956_1_alg».proof.Proof.HostChain
import proofs.«131976_j47605417508956_1_alg».proof.Proof.Layer1
import proofs.«131976_j47605417508956_1_alg».proof.Proof.Layer2
import Idealize.ShloMosaic.Lib.StableHlo.Run

set_option maxRecDepth 16384

noncomputable section

namespace Cert.GCN.KernelValue

open Idealize.ShloMosaic Idealize.ShloMosaic.TcCoe Idealize.ShloMosaic.StableHlo Idealize.SL.Sem
open Cert.KernelIdeal Cert.KernelIdeal.Gen Cert.GCN

/-- Reads a buffer back through one literal stretch of host operations: each operation's result at its own buffer is
    its function of what it read, and any other buffer is as before. -/
local macro "read_stretch" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

section Reads

variable {F : FTy → Type} [FloatOps F]
variable (m : (ℓ : Loc nD τ sig) → Buf (Elt F) ℓ) (ρ : Dev nD → PrngReg)

/-! ## Boundary 3: what the first kernel is entered with -/

set_option maxHeartbeats 4000000 in
theorem src3 (c : Dev nD) : W3 m ρ c (Proc.devRef .tc main_v3) = srcIdx (m ((c : Thread nD τ).loc main_arg5)) := by
  dsimp only [W3, W2, W1, hostOps0, hostOps0_1, hostOps0_2]
  read_stretch
  try rfl

set_option maxHeartbeats 4000000 in
theorem dst3 (c : Dev nD) : W3 m ρ c (Proc.devRef .tc main_v6) = dstIdx (m ((c : Thread nD τ).loc main_arg5)) := by
  dsimp only [W3, W2, W1, hostOps0, hostOps0_1, hostOps0_2]
  read_stretch
  try rfl

set_option maxHeartbeats 8000000 in
theorem norm3 (c : Dev nD) : W3 m ρ c (Proc.devRef .tc main_v31)
    = edgeNorm (srcIdx (m ((c : Thread nD τ).loc main_arg5))) (dstIdx (m ((c : Thread nD τ).loc main_arg5))) := by
  dsimp only [W3, W2, W1, hostOps0, hostOps0_1, hostOps0_2]
  read_stretch
  try rfl

set_option maxHeartbeats 4000000 in
theorem arg0_3 (c : Dev nD) : W3 m ρ c (Proc.devRef .tc main_arg0) = m ((c : Thread nD τ).loc main_arg0) := by
  dsimp only [W3, W2, W1, hostOps0, hostOps0_1, hostOps0_2]
  read_stretch
  try rfl
set_option maxHeartbeats 4000000 in
theorem arg1_3 (c : Dev nD) : W3 m ρ c (Proc.devRef .tc main_arg1) = m ((c : Thread nD τ).loc main_arg1) := by
  dsimp only [W3, W2, W1, hostOps0, hostOps0_1, hostOps0_2]
  read_stretch
  try rfl
set_option maxHeartbeats 4000000 in
theorem arg2_3 (c : Dev nD) : W3 m ρ c (Proc.devRef .tc main_arg2) = m ((c : Thread nD τ).loc main_arg2) := by
  dsimp only [W3, W2, W1, hostOps0, hostOps0_1, hostOps0_2]
  read_stretch
  try rfl
set_option maxHeartbeats 4000000 in
theorem arg3_3 (c : Dev nD) : W3 m ρ c (Proc.devRef .tc main_arg3) = m ((c : Thread nD τ).loc main_arg3) := by
  dsimp only [W3, W2, W1, hostOps0, hostOps0_1, hostOps0_2]
  read_stretch
  try rfl
set_option maxHeartbeats 4000000 in
theorem arg4_3 (c : Dev nD) : W3 m ρ c (Proc.devRef .tc main_arg4) = m ((c : Thread nD τ).loc main_arg4) := by
  dsimp only [W3, W2, W1, hostOps0, hostOps0_1, hostOps0_2]
  read_stretch
  try rfl

/-! ## Boundary 5: the middle stretch, from what the first kernel leaves -/

set_option maxHeartbeats 4000000 in
theorem agg5 (c : Dev nD) : W5 m ρ c (Proc.devRef .tc main_v45)
    = aggregate64 (W4 m ρ c (Proc.devRef .tc main_v3)) (W4 m ρ c (Proc.devRef .tc main_v6)) (W4 m ρ c (Proc.devRef .tc main_v31))
        (W4 m ρ c (Proc.devRef .tc main_v32)) := by
  dsimp only [W5, hostOps1]
  read_stretch
  try rfl

set_option maxHeartbeats 4000000 in
theorem brow5 (c : Dev nD) : W5 m ρ c (Proc.devRef .tc main_v46)
    = shapeCast S1x64 (W4 m ρ c (Proc.devRef .tc main_arg2)) Facts₀.shapeCasts_S64_S1x64 := by
  dsimp only [W5, hostOps1]
  read_stretch
  try rfl

set_option maxHeartbeats 4000000 in
theorem keep5 (c : Dev nD) : W5 m ρ c (Proc.devRef .tc main_v3) = W4 m ρ c (Proc.devRef .tc main_v3)
    ∧ W5 m ρ c (Proc.devRef .tc main_v6) = W4 m ρ c (Proc.devRef .tc main_v6)
    ∧ W5 m ρ c (Proc.devRef .tc main_v31) = W4 m ρ c (Proc.devRef .tc main_v31)
    ∧ W5 m ρ c (Proc.devRef .tc main_arg3) = W4 m ρ c (Proc.devRef .tc main_arg3)
    ∧ W5 m ρ c (Proc.devRef .tc main_arg4) = W4 m ρ c (Proc.devRef .tc main_arg4) := by
  refine ⟨?_, ?_, ?_, ?_, ?_⟩ <;> (dsimp only [W5, hostOps1]; read_stretch; try rfl)

/-! ## Boundary 7: the last stretch, from what the second kernel leaves -/

set_option maxHeartbeats 4000000 in
theorem out7 (c : Dev nD) : W7 m ρ c (Proc.devRef .tc main_v63)
    = aggregate32 (W6 m ρ c (Proc.devRef .tc main_v3)) (W6 m ρ c (Proc.devRef .tc main_v6)) (W6 m ρ c (Proc.devRef .tc main_v31))
        (W6 m ρ c (Proc.devRef .tc main_v47)) (W6 m ρ c (Proc.devRef .tc main_arg4)) := by
  dsimp only [W7, hostOps2]
  read_stretch
  try rfl

end Reads

/-! ## The result, at the ideal values -/

variable (m : (ℓ : Loc nD τ sig) → Buf (Elt Ideal) ℓ) (ρ : Dev nD → PrngReg)

/-- The first kernel's output: the features times the first weights. -/
theorem layer1_out (c : Dev nD) : W4 m ρ c (Proc.devRef .tc main_v32)
    = Layer1.product (m ((c : Thread nD τ).loc main_arg0)) (m ((c : Thread nD τ).loc main_arg1)) := by
  refine (W4_arr m ρ c 2).trans ((Layer1.final (V3 m ρ) c).trans ?_)
  show Layer1.product (W3 m ρ c (Proc.devRef .tc main_arg0)) (W3 m ρ c (Proc.devRef .tc main_arg1)) = _
  rw [arg0_3, arg1_3]

/-- The second kernel's output: the clamped, biased aggregate it is entered with times the second weights. -/
theorem layer2_out (c : Dev nD) : W6 m ρ c (Proc.devRef .tc main_v47)
    = Layer2.product (Layer2.hidden (W5 m ρ c (Proc.devRef .tc main_v45)) (W5 m ρ c (Proc.devRef .tc main_v46)))
        (W5 m ρ c (Proc.devRef .tc main_arg3)) :=
  (W6_arr m ρ c 3).trans (Layer2.final (V5 m ρ) c)

/-- THE KERNEL PROGRAM'S RESULT: two graph convolutions over the messages' sources `s`, targets `d` and weights `n`. -/
theorem result (c : Dev nD) : W7 m ρ c (Proc.devRef .tc main_v63)
    = aggregate32 (srcIdx (m ((c : Thread nD τ).loc main_arg5))) (dstIdx (m ((c : Thread nD τ).loc main_arg5)))
        (edgeNorm (srcIdx (m ((c : Thread nD τ).loc main_arg5))) (dstIdx (m ((c : Thread nD τ).loc main_arg5))))
        (Layer2.product
          (Layer2.hidden
            (aggregate64 (srcIdx (m ((c : Thread nD τ).loc main_arg5))) (dstIdx (m ((c : Thread nD τ).loc main_arg5)))
              (edgeNorm (srcIdx (m ((c : Thread nD τ).loc main_arg5))) (dstIdx (m ((c : Thread nD τ).loc main_arg5))))
              (Layer1.product (m ((c : Thread nD τ).loc main_arg0)) (m ((c : Thread nD τ).loc main_arg1))))
            (shapeCast S1x64 (m ((c : Thread nD τ).loc main_arg2)) Facts₀.shapeCasts_S64_S1x64))
          (m ((c : Thread nD τ).loc main_arg3)))
        (m ((c : Thread nD τ).loc main_arg4)) := by
  obtain ⟨k3, k6, k31, ka3, ka4⟩ := keep5 m ρ c
  have s4 : W4 m ρ c (Proc.devRef .tc main_v3) = srcIdx (m ((c : Thread nD τ).loc main_arg5)) :=
    (W4_of_ne m ρ c main_v3 (by decide)).trans (src3 m ρ c)
  have d4 : W4 m ρ c (Proc.devRef .tc main_v6) = dstIdx (m ((c : Thread nD τ).loc main_arg5)) :=
    (W4_of_ne m ρ c main_v6 (by decide)).trans (dst3 m ρ c)
  have n4 := (W4_of_ne m ρ c main_v31 (by decide)).trans (norm3 m ρ c)
  have b4 : W4 m ρ c (Proc.devRef .tc main_arg2) = m ((c : Thread nD τ).loc main_arg2) :=
    (W4_of_ne m ρ c main_arg2 (by decide)).trans (arg2_3 m ρ c)
  have w4 : W4 m ρ c (Proc.devRef .tc main_arg3) = m ((c : Thread nD τ).loc main_arg3) :=
    (W4_of_ne m ρ c main_arg3 (by decide)).trans (arg3_3 m ρ c)
  have o4 : W4 m ρ c (Proc.devRef .tc main_arg4) = m ((c : Thread nD τ).loc main_arg4) :=
    (W4_of_ne m ρ c main_arg4 (by decide)).trans (arg4_3 m ρ c)
  rw [out7, W6_of_ne m ρ c main_v3 (by decide), W6_of_ne m ρ c main_v6 (by decide), W6_of_ne m ρ c main_v31 (by decide),
    W6_of_ne m ρ c main_arg4 (by decide), layer2_out, agg5, brow5, k3, k6, k31, ka3, ka4, layer1_out, s4, d4, n4, b4, w4, o4]

end Cert.GCN.KernelValue

end
-- ==== Proof.RefValue.lean ====
/-
  The reference program's result as the same term of its arguments.

  The reference runs on the host alone. Its operations before the first product and after each product are, word for
  word, the graph part named in the module of the shared host chains; in between it multiplies by the first weights, adds
  the first bias to every row and clamps at zero, and multiplies by the second weights. The first statement below says so
  for any float family, by unfolding the composed term. At the ideal values the bias-and-clamp step is the hidden
  activation of layer 2, entry by entry: the bias broadcast to every row reads the bias's entry k at column k, exactly
  as the bias held as a 1 by 64 row does.
-/
import proofs.«131976_j47605417508956_1_alg».proof.Proof.RefRun
import proofs.«131976_j47605417508956_1_alg».proof.Proof.HostChain
import proofs.«131976_j47605417508956_1_alg».proof.Proof.Layer1
import proofs.«131976_j47605417508956_1_alg».proof.Proof.Layer2
import Idealize.ShloMosaic.Lib.Pipeline.Value
import Idealize.ShloMosaic.Lib.ValueIdx

set_option maxRecDepth 16384

noncomputable section

namespace Cert.GCN.RefValue

open Idealize.ShloMosaic Idealize.ShloMosaic.TcCoe Idealize.ShloMosaic.ValueIdx Idealize.SL.Sem
open Cert.GCN

/-- The reference's two layers between the shared graph parts: product, bias on every row, clamp at zero, product. -/
def dense {F : FTy → Type} [FloatOps F]
    (agg : (⟨Cert.ReferenceIdeal.S100000x64, .f32⟩ : BufTy).Contents (Elt F) → (⟨Cert.ReferenceIdeal.S100000x64, .f32⟩ : BufTy).Contents (Elt F))
    (x : (⟨Cert.ReferenceIdeal.S100000x128, .f32⟩ : BufTy).Contents (Elt F)) (w1 : (⟨Cert.ReferenceIdeal.S128x64, .f32⟩ : BufTy).Contents (Elt F))
    (b1 : (⟨Cert.ReferenceIdeal.S64, .f32⟩ : BufTy).Contents (Elt F)) (w2 : (⟨Cert.ReferenceIdeal.S64x32, .f32⟩ : BufTy).Contents (Elt F)) :
    (⟨Cert.ReferenceIdeal.S100000x32, .f32⟩ : BufTy).Contents (Elt F) :=
  Host.dotGeneral Cert.ReferenceIdeal.dot_S100000x64_S64x32_S100000x32_1_0_0_1_n_n none
    (maximumf (addf (agg (Host.dotGeneral Cert.ReferenceIdeal.dot_S100000x128_S128x64_S100000x64_1_0_0_1_n_n none x w1))
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b1)))
      (broadcastInDim Cert.ReferenceIdeal.S100000x64 ![] Cert.ReferenceIdeal.Facts₀.bcast_S_S100000x64 (constant Cert.ReferenceIdeal.S_ .f32 0x00000000#32)))
    w2

section Shape
variable {F : FTy → Type} [FloatOps F]
variable (m : (ℓ : Loc Cert.ReferenceIdeal.nD Cert.ReferenceIdeal.τ Cert.ReferenceIdeal.sig) → Buf (Elt F) ℓ)

set_option maxHeartbeats 4000000 in
/-- The reference's composed result term is the shared graph part around its two dense layers, for any float family. -/
theorem shape (c : Dev Cert.ReferenceIdeal.nD) :
    Cert.ReferenceIdeal.ValueP.res_main_v66 m c
      = aggregate32 (srcIdx (m ((c.tc : Thread Cert.ReferenceIdeal.nD Cert.ReferenceIdeal.τ).loc Cert.ReferenceIdeal.main_arg5)))
          (dstIdx (m ((c.tc : Thread Cert.ReferenceIdeal.nD Cert.ReferenceIdeal.τ).loc Cert.ReferenceIdeal.main_arg5)))
          (edgeNorm (srcIdx (m ((c.tc : Thread Cert.ReferenceIdeal.nD Cert.ReferenceIdeal.τ).loc Cert.ReferenceIdeal.main_arg5)))
            (dstIdx (m ((c.tc : Thread Cert.ReferenceIdeal.nD Cert.ReferenceIdeal.τ).loc Cert.ReferenceIdeal.main_arg5))))
          (dense
            (aggregate64 (srcIdx (m ((c.tc : Thread Cert.ReferenceIdeal.nD Cert.ReferenceIdeal.τ).loc Cert.ReferenceIdeal.main_arg5)))
              (dstIdx (m ((c.tc : Thread Cert.ReferenceIdeal.nD Cert.ReferenceIdeal.τ).loc Cert.ReferenceIdeal.main_arg5)))
              (edgeNorm (srcIdx (m ((c.tc : Thread Cert.ReferenceIdeal.nD Cert.ReferenceIdeal.τ).loc Cert.ReferenceIdeal.main_arg5)))
                (dstIdx (m ((c.tc : Thread Cert.ReferenceIdeal.nD Cert.ReferenceIdeal.τ).loc Cert.ReferenceIdeal.main_arg5)))))
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3)))
          (m ((c.tc : Thread Cert.ReferenceIdeal.nD Cert.ReferenceIdeal.τ).loc Cert.ReferenceIdeal.main_arg4)) := by
  unfold Cert.ReferenceIdeal.ValueP.res_main_v66
  rfl

end Shape

/-! ## At the ideal values -/

/-- The bias on every row and the clamp at zero, entry by entry: layer 2's hidden activation over the bias as a row. -/
theorem bias_clamp (a : FVec Ideal Cert.KernelIdeal.S100000x64 .f32) (b1 : FVec Ideal Cert.KernelIdeal.S64 .f32) :
    (maximumf (addf a
        (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 b1)))
      (broadcastInDim Cert.ReferenceIdeal.S100000x64 ![] Cert.ReferenceIdeal.Facts₀.bcast_S_S100000x64 (constant (F := Ideal) Cert.ReferenceIdeal.S_ .f32 0x00000000#32))
      : FVec Ideal Cert.KernelIdeal.S100000x64 .f32)
      = Layer2.hidden a (shapeCast Cert.KernelIdeal.S1x64 b1 Cert.KernelIdeal.Facts₀.shapeCasts_S64_S1x64) := by
  funext i
  obtain ⟨r, k, rfl⟩ : ∃ (r : Fin 100000) (k : Fin 64), i = ix2 r k := ⟨i 0, i 1, eq_ix2 i⟩
  rw [maximumf_apply, addf_apply,
    broadcastInDim_apply ![0, 1] Cert.ReferenceIdeal.Facts₀.bcast_S1x64_S100000x64_0_1 _ (ix2 r k) (ix2 (⟨0, Nat.one_pos⟩ : Fin 1) k)
      (fun a => by match a with | ⟨0, _⟩ => rfl | ⟨1, _⟩ => rfl),
    broadcastInDim_apply ![1] Cert.ReferenceIdeal.Facts₀.bcast_S64_S1x64_1 b1 (ix2 (⟨0, Nat.one_pos⟩ : Fin 1) k) (ix1 k)
      (fun a => by match a with | ⟨0, _⟩ => rfl),
    broadcastInDim_apply ![] Cert.ReferenceIdeal.Facts₀.bcast_S_S100000x64 _ (ix2 r k) ix0 (fun a => a.elim0),
    constant_apply]
  unfold Layer2.hidden
  rw [shapeCast_apply b1 Cert.KernelIdeal.Facts₀.shapeCasts_S64_S1x64 (ix2 (⟨0, Nat.one_pos⟩ : Fin 1) (⟨((ix2 r k : Cert.KernelIdeal.S100000x64.Idx) 1).val, idx2_lt1 (ix2 r k)⟩ : Fin 64)) (ix1 k)
    (by rw [Shape.rowMajor_val_one, Shape.rowMajor_val_two]; show k.val = 0 * 64 + k.val; omega)]

variable (m : (ℓ : Loc Cert.ReferenceIdeal.nD Cert.ReferenceIdeal.τ Cert.ReferenceIdeal.sig) → Buf (Elt Ideal) ℓ)

/-- The reference's two dense layers are layer 1's product, layer 2's hidden activation and layer 2's product. -/
theorem dense_eq (agg : FVec Ideal Cert.KernelIdeal.S100000x64 .f32 → FVec Ideal Cert.KernelIdeal.S100000x64 .f32)
    (x : FVec Ideal Cert.KernelIdeal.S100000x128 .f32) (w1 : FVec Ideal Cert.KernelIdeal.S128x64 .f32)
    (b1 : FVec Ideal Cert.KernelIdeal.S64 .f32) (w2 : FVec Ideal Cert.KernelIdeal.S64x32 .f32) :
    dense (F := Ideal) agg x w1 b1 w2
      = Layer2.product (Layer2.hidden (agg (Layer1.product x w1)) (shapeCast Cert.KernelIdeal.S1x64 b1 Cert.KernelIdeal.Facts₀.shapeCasts_S64_S1x64)) w2 := by
  unfold dense
  rw [bias_clamp]
  rfl

end Cert.GCN.RefValue

end
-- ==== Proof.lean ====
/-
  A two-layer graph convolution network on 100000 nodes: the kernel program against the host reference.

  Both programs compute, for a feature matrix x, weights w1, w2, biases b1, b2 and an edge list,
      out = A (relu (A (x w1) + b1) w2) + b2,
  where A sends along every edge and every self loop the source node's row scaled by 1/sqrt(deg source * deg target) and
  adds what arrives at each target node. The graph part A (and the degrees, sources and targets it is built from) is the
  same sequence of host operations in both programs, and is never opened here. They differ in the dense parts: the
  kernel program computes x w1 in a Pallas kernel over ten blocks of rows, and relu (. + b1) w2 fused in a second one,
  where the reference uses two host products with the bias and the clamp in between. At the ideal values a change of
  float format is the identity and a product into a zero accumulator is the plain sum over the shared axis, so each
  kernel's output array is the corresponding whole-array product (modules Layer1 and Layer2), the kernel program's
  result is the composed term of module KernelValue, and the reference's composed term is the same one (module RefValue).
  No algebraic law beyond that is used, and the precondition is never opened.
  The frames of the two kernel programs are the generated ones; the reference's frame is its run with the result dropped.
-/
import proofs.«131976_j47605417508956_1_alg».proof.Defs
import proofs.«131976_j47605417508956_1_alg».proof.Proof.Gen.Kernel
import proofs.«131976_j47605417508956_1_alg».proof.Proof.Gen.Kernel.Skeleton
import proofs.«131976_j47605417508956_1_alg».proof.Proof.Gen.Kernel.Launch
import proofs.«131976_j47605417508956_1_alg».proof.Proof.Gen.Kernel.Points
import proofs.«131976_j47605417508956_1_alg».proof.Proof.Gen.Kernel.Frame
import proofs.«131976_j47605417508956_1_alg».proof.Proof.Gen.KernelIdeal
import proofs.«131976_j47605417508956_1_alg».proof.Proof.Gen.KernelIdeal.Skeleton
import proofs.«131976_j47605417508956_1_alg».proof.Proof.Gen.KernelIdeal.Launch
import proofs.«131976_j47605417508956_1_alg».proof.Proof.Gen.KernelIdeal.Points
import proofs.«131976_j47605417508956_1_alg».proof.Proof.Gen.KernelIdeal.Frame
import proofs.«131976_j47605417508956_1_alg».proof.Proof.Gen.ReferenceIdeal
import proofs.«131976_j47605417508956_1_alg».proof.Proof.Gen.Pre_finite_inputs
import proofs.«131976_j47605417508956_1_alg».proof.Proof.RefRun
import proofs.«131976_j47605417508956_1_alg».proof.Proof.KernelRun
import proofs.«131976_j47605417508956_1_alg».proof.Proof.KernelValue
import proofs.«131976_j47605417508956_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From arguments that agree both programs end at the same array: the kernel program's result term and the
    reference's are one term of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v63),
    Cert.KernelIdeal.RunNamed.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  show Cert.ReferenceIdeal.ValueP.res_main_v66 m' c = Cert.KernelIdeal.Gen.W7 m ρ c (Proc.devRef .tc Cert.KernelIdeal.main_v63)
  rw [Cert.GCN.RefValue.shape, Cert.GCN.RefValue.dense_eq, Cert.GCN.KernelValue.result, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
